-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x100000x128 : Shape := ⟨3, ![1, 100000, 128]⟩
abbrev S128x128 : Shape := ⟨2, ![128, 128]⟩
abbrev S_ : Shape := ⟨0, ![]⟩

class Facts : Prop where
  bcast_S_S1x100000x128 : S_.BroadcastsInDim S1x100000x128 (![] : Fin 0 → Fin S1x100000x128.rank)
  reducesTo_S1x100000x128_S_d0_1_2 : S1x100000x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S1x100000x128 .f32) (main_arg1 : FVec F S128x128 .f32) (main_arg2 : FVec F S128x128 .f32) (main_arg3 : FVec F S128x128 .f32) (main_arg4 : FVec F S128x128 .f32) (main_arg5 : FVec F S128x128 .f32) : IVec S_ 1 :=
  let main_v0 : FVec F S1x100000x128 .f32 := Host.absf main_arg0
  let main_cst : FVec F S_ .f32 := constant S_ .f32 0x7F800000#32
  let main_v1 : FVec F S1x100000x128 .f32 := broadcastInDim S1x100000x128 ![] bcast_S_S1x100000x128 main_cst
  let main_v2 : IVec S1x100000x128 1 := cmpf .olt main_v0 main_v1
  let main_c : IVec S_ 1 := constantI S_ 1 1#1
  let main_v3 : IVec S_ 1 := (fun x v => Host.reduce IntOp.andi x v reducesTo_S1x100000x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S1x100000x128 : Shape := ⟨3, ![1, 100000, 128]⟩
abbrev S128x128 : Shape := ⟨2, ![128, 128]⟩
abbrev S100000x128 : Shape := ⟨2, ![100000, 128]⟩
abbrev S10000x128 : Shape := ⟨2, ![10000, 128]⟩

abbrev nBuf : Space → Nat
  | .hbm => 8
  | .vmem => 9
  | .smem => 0
  | _ => 0

abbrev bufTy : (tb : Table) → Fin (tcTables nBuf tb) → BufTy
  | .hbm, ⟨0, _⟩ => ⟨S1x100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S100000x128, .f32⟩
  | .hbm, ⟨7, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S10000x128, .f32⟩
  | .local _ .vmem, ⟨8, _⟩ => ⟨S10000x128, .f32⟩
  | _, _ => ⟨S1x100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1x100000x128_S100000x128 : S1x100000x128.ShapeCasts S100000x128
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  dot_S10000x128_S128x128_S10000x128_1_1_0_0_n_n_wf : DotDims.WF S10000x128 S128x128 S10000x128 [1] [1] [0] [0] [] []
  dot_S10000x128_S128x128_S10000x128_1_0_0_1_n_n_wf : DotDims.WF S10000x128 S128x128 S10000x128 [1] [0] [0] [1] [] []
  dot_S128x128_S128x128_S128x128_0_0_1_1_n_n_wf : DotDims.WF S128x128 S128x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S128x128_S128x128_S128x128_0_0_1_1_n_n : DotDims S128x128 S128x128 S128x128 where
  lhsContracting := [0]
  rhsContracting := [0]
  lhsNonContracting := [1]
  rhsNonContracting := [1]
  lhsBatch := []
  rhsBatch := []
  wf := dot_S128x128_S128x128_S128x128_0_0_1_1_n_n_wf

abbrev win0_0 : Pipeline.Window sig grid0 :=
  Pipeline.Window.ofSpec (Memref.whole main_call0_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x100000x128 : Shape := ⟨3, ![1, 100000, 128]⟩
abbrev S128x128 : Shape := ⟨2, ![128, 128]⟩
abbrev S100000x128 : Shape := ⟨2, ![100000, 128]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S1x100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S100000x128, .f32⟩
  | .hbm, ⟨7, _⟩ => ⟨S128x128, .f32⟩
  | .hbm, ⟨8, _⟩ => ⟨S100000x128, .f32⟩
  | .hbm, ⟨9, _⟩ => ⟨S100000x128, .f32⟩
  | .hbm, ⟨10, _⟩ => ⟨S_, .f32⟩
  | .hbm, ⟨11, _⟩ => ⟨S100000x128, .f32⟩
  | .hbm, ⟨12, _⟩ => ⟨S100000x128, .f32⟩
  | .hbm, ⟨13, _⟩ => ⟨S128x128, .f32⟩
  | .hbm, ⟨14, _⟩ => ⟨S100000x128, .f32⟩
  | .hbm, ⟨15, _⟩ => ⟨S100000x128, .f32⟩
  | .hbm, ⟨16, _⟩ => ⟨S_, .f32⟩
  | .hbm, ⟨17, _⟩ => ⟨S100000x128, .f32⟩
  | .hbm, ⟨18, _⟩ => ⟨S100000x128, .f32⟩
  | .hbm, ⟨19, _⟩ => ⟨S128x128, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S128x128, .f32⟩
  | .hbm, ⟨26, _⟩ => ⟨S100000x128, .f32⟩
  | .hbm, ⟨27, _⟩ => ⟨S100000x128, .f32⟩
  | _, _ => ⟨S1x100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_cst : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call2_cst : Ref sig .tc := ⟨.hbm, 22, rfl⟩
abbrev main_call2_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  shapeCasts_S1x100000x128_S100000x128 : S1x100000x128.ShapeCasts S100000x128
  transposes_S128x128_S128x128_1_0 : S128x128.Transposes [1, 0] S128x128
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Rows.lean ====
/-
  The four-layer chain, row by row, on the extended reals.

  Every output row depends on ONE input row `v` (128 entries) and on the five 128×128 matrices.  With
  `v · Wᵀ` entry `j` the pairing of `v` with row `j` of `W` and `u · A` the ordinary row-times-matrix product,
  a hidden layer is `max((v · Wᵀ) · A, 0)` entrywise.  The last layer is `(h · Wᵀ) · A` in one program and
  `h · (Wᵀ · A)` in the other: associativity of the matrix product, which on the extended reals is a statement
  about distributing a factor over a sum and so needs every entry to be a real number (no ±∞).  Real entries
  stay real through sums of products and through `max(·, 0)`, so real inputs keep all three hidden layers real.
-/
import Idealize.ShloMosaic.PureOps.Ideal
import Idealize.ShloMosaic.Lib.ValueIdx

noncomputable section

namespace Cert.Rows

open Idealize.ShloMosaic Idealize.ShloMosaic.ValueIdx

/-- A row of 128 extended reals. -/
abbrev Row := Fin 128 → EReal
/-- A 128×128 matrix of extended reals, by row then column. -/
abbrev Mat := Fin 128 → Fin 128 → EReal

/-- `v · Wᵀ`: entry `j` pairs `v` with row `j` of `W`. -/
def timesT (v : Row) (W : Mat) : Row := fun j => ∑ k : Fin 128, v k * W j k
/-- `u · A`: entry `c` pairs `u` with column `c` of `A`. -/
def times (u : Row) (A : Mat) : Row := fun c => ∑ j : Fin 128, u j * A j c
/-- One hidden layer: `max((v · Wᵀ) · A, 0)`, entry by entry. -/
def hidden (v : Row) (W A : Mat) : Row := fun c => max (times (timesT v W) A c) 0
/-- The last layer associated to the left: `(h · Wᵀ) · A`. -/
def lastLeft (h : Row) (W A : Mat) : Row := times (timesT h W) A
/-- `Wᵀ · A`: entry `(k, c)` pairs column `k` of `W` with column `c` of `A`. -/
def folded (W A : Mat) : Mat := fun k c => ∑ j : Fin 128, W j k * A j c
/-- The last layer associated to the right: `h · (Wᵀ · A)`. -/
def lastRight (h : Row) (W A : Mat) : Row := times h (folded W A)

/-- The three hidden layers of one row. -/
def hidden3 (v : Row) (Win W1 W2 A : Mat) : Row := hidden (hidden (hidden v Win A) W1 A) W2 A

/-! ## Real entries -/

/-- An extended real that is a real number. -/
def IsReal (x : EReal) : Prop := ∃ r : ℝ, x = (r : EReal)

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals is a real. -/
theorem isReal_sum_mul (a b : Fin 128 → EReal) (ha : ∀ k, IsReal (a k)) (hb : ∀ k, IsReal (b k)) :
    IsReal (∑ k : Fin 128, a k * b k) := by
  choose a' ha using ha
  choose b' hb using hb
  refine ⟨∑ k : Fin 128, a' k * b' k, ?_⟩
  rw [coe_sum]
  exact Finset.sum_congr rfl fun k _ => by rw [ha k, hb k, EReal.coe_mul]

/-- `max(·, 0)` of a real is a real. -/
theorem isReal_max_zero {x : EReal} (hx : IsReal x) : IsReal (max x 0) := by
  obtain ⟨r, rfl⟩ := hx
  rcases le_total (r : EReal) 0 with h | h
  · exact ⟨0, by rw [max_eq_right h]; rfl⟩
  · exact ⟨r, by rw [max_eq_left h]⟩

/-- A hidden layer of a real row through real matrices is a real row. -/
theorem isReal_hidden {v : Row} {W A : Mat} (hv : ∀ k, IsReal (v k)) (hW : ∀ j k, IsReal (W j k)) (hA : ∀ j c, IsReal (A j c))
    (c : Fin 128) : IsReal (hidden v W A c) :=
  isReal_max_zero (isReal_sum_mul _ _ (fun j => isReal_sum_mul _ _ hv (hW j)) (fun j => hA j c))

/-- So are the three hidden layers. -/
theorem isReal_hidden3 {v : Row} {Win W1 W2 A : Mat} (hv : ∀ k, IsReal (v k)) (hWin : ∀ j k, IsReal (Win j k))
    (hW1 : ∀ j k, IsReal (W1 j k)) (hW2 : ∀ j k, IsReal (W2 j k)) (hA : ∀ j c, IsReal (A j c)) (c : Fin 128) :
    IsReal (hidden3 v Win W1 W2 A c) :=
  isReal_hidden (isReal_hidden (isReal_hidden hv hWin hA) hW1 hA) hW2 hA c

/-! ## Associativity of the last layer -/

/-- On real entries `h · (Wᵀ · A) = (h · Wᵀ) · A`: both are the double sum of `h k · W j k · A j c` over `j` and `k`. -/
theorem lastRight_eq_lastLeft {h : Row} {W A : Mat} (hh : ∀ k, IsReal (h k)) (hW : ∀ j k, IsReal (W j k))
    (hA : ∀ j c, IsReal (A j c)) : lastRight h W A = lastLeft h W A := by
  choose h' hh using hh
  choose W' hW using hW
  choose A' hA using hA
  obtain rfl : h = fun k => ((h' k : ℝ) : EReal) := funext hh
  obtain rfl : W = fun j k => ((W' j k : ℝ) : EReal) := funext fun j => funext (hW j)
  obtain rfl : A = fun j c => ((A' j c : ℝ) : EReal) := funext fun j => funext (hA j)
  funext c
  have hR : lastRight (fun k => ((h' k : ℝ) : EReal)) (fun j k => ((W' j k : ℝ) : EReal)) (fun j c => ((A' j c : ℝ) : EReal)) c
      = ((∑ k : Fin 128, h' k * ∑ j : Fin 128, W' j k * A' j c : ℝ) : EReal) := by
    simp only [lastRight, times, folded, coe_sum, EReal.coe_mul]
  have hL : lastLeft (fun k => ((h' k : ℝ) : EReal)) (fun j k => ((W' j k : ℝ) : EReal)) (fun j c => ((A' j c : ℝ) : EReal)) c
      = ((∑ j : Fin 128, (∑ k : Fin 128, h' k * W' j k) * A' j c : ℝ) : EReal) := by
    simp only [lastLeft, times, timesT, coe_sum, EReal.coe_mul]
  rw [hR, hL]
  congr 1
  simp only [Finset.mul_sum, Finset.sum_mul]
  rw [Finset.sum_comm]
  exact Finset.sum_congr rfl fun j _ => Finset.sum_congr rfl fun k _ => by ring

/-! ## The whole arrays -/

/-- A 128×128 array as a matrix. -/
def mat (W : (⟨2, ![128, 128]⟩ : Shape).Idx → EReal) : Mat := fun j k => W (ix2 j k)
/-- Row `r` of an array of 128-entry rows. -/
def rowOf {n : Nat} (X : (⟨2, ![n, 128]⟩ : Shape).Idx → EReal) (r : Fin n) : Row := fun k => X (ix2 r k)

/-- The result array with the last layer associated to the left: row `r` is the chain applied to row `r` of `X`. -/
def chainLeft (X : (⟨2, ![100000, 128]⟩ : Shape).Idx → EReal) (A Win W1 W2 Wout : (⟨2, ![128, 128]⟩ : Shape).Idx → EReal) :
    (⟨2, ![100000, 128]⟩ : Shape).Idx → EReal :=
  fun i => lastLeft (hidden3 (rowOf X ⟨(i 0).val, (i 0).isLt⟩) (mat Win) (mat W1) (mat W2) (mat A)) (mat Wout) (mat A) ⟨(i 1).val, (i 1).isLt⟩

/-- The same with the last layer associated to the right. -/
def chainRight (X : (⟨2, ![100000, 128]⟩ : Shape).Idx → EReal) (A Win W1 W2 Wout : (⟨2, ![128, 128]⟩ : Shape).Idx → EReal) :
    (⟨2, ![100000, 128]⟩ : Shape).Idx → EReal :=
  fun i => lastRight (hidden3 (rowOf X ⟨(i 0).val, (i 0).isLt⟩) (mat Win) (mat W1) (mat W2) (mat A)) (mat Wout) (mat A) ⟨(i 1).val, (i 1).isLt⟩

/-- `chainRight` at an index whose coordinates are `r` and `cc`. -/
theorem chainRight_apply (X : (⟨2, ![100000, 128]⟩ : Shape).Idx → EReal) (A Win W1 W2 Wout : (⟨2, ![128, 128]⟩ : Shape).Idx → EReal)
    (k : (⟨2, ![100000, 128]⟩ : Shape).Idx) (r : Fin 100000) (cc : Fin 128) (h0 : (k 0).val = r.val) (h1 : (k 1).val = cc.val) :
    chainRight X A Win W1 W2 Wout k
      = lastRight (hidden3 (rowOf X r) (mat Win) (mat W1) (mat W2) (mat A)) (mat Wout) (mat A) cc := by
  have e0 : (⟨(k 0).val, (k 0).isLt⟩ : Fin 100000) = r := Fin.ext h0
  have e1 : (⟨(k 1).val, (k 1).isLt⟩ : Fin 128) = cc := Fin.ext h1
  show lastRight (hidden3 (rowOf X ⟨(k 0).val, (k 0).isLt⟩) (mat Win) (mat W1) (mat W2) (mat A)) (mat Wout) (mat A) ⟨(k 1).val, (k 1).isLt⟩ = _
  rw [e0, e1]

/-- On arrays of reals the two agree. -/
theorem chainRight_eq_chainLeft {X : (⟨2, ![100000, 128]⟩ : Shape).Idx → EReal}
    {A Win W1 W2 Wout : (⟨2, ![128, 128]⟩ : Shape).Idx → EReal}
    (hX : ∀ i, IsReal (X i)) (hA : ∀ i, IsReal (A i)) (hWin : ∀ i, IsReal (Win i)) (hW1 : ∀ i, IsReal (W1 i))
    (hW2 : ∀ i, IsReal (W2 i)) (hWout : ∀ i, IsReal (Wout i)) :
    chainRight X A Win W1 W2 Wout = chainLeft X A Win W1 W2 Wout := by
  funext i
  exact congrFun (lastRight_eq_lastLeft
    (h := hidden3 (rowOf X ⟨(i 0).val, (i 0).isLt⟩) (mat Win) (mat W1) (mat W2) (mat A)) (W := mat Wout) (A := mat A)
    (isReal_hidden3 (fun k => hX _) (fun j k => hWin _) (fun j k => hW1 _) (fun j k => hW2 _) (fun j c => hA _))
    (fun j k => hWout _) (fun j c => hA _)) ⟨(i 1).val, (i 1).isLt⟩

end Cert.Rows

end
-- ==== Proof.KerChain.lean ====
/-
  The kernel body's stored value, row by row, is the chain with the last layer associated to the right.

  The body holds one block of 10000 input rows and the five whole matrices.  Each of its matrix-unit products
  into a zero accumulator is, at an entry, a plain sum over the one contracted axis: contracting both operands'
  second axes gives `row · Wᵀ`; contracting the left operand's second axis with the right operand's first gives
  `row · A`; contracting both operands' first axes gives `Wᵀ · A`.  The maximum with the splat zero is
  `max(·, 0)`.  So row `p` of the stored block is the three hidden layers of row `p` of the input block followed
  by `h · (Woutᵀ · A)`.
-/
import proofs.«174949_g58128087384148_cont_9to1_m_400_14_alg».proof.Proof.Gen.KernelIdeal.Skeleton
import proofs.«174949_g58128087384148_cont_9to1_m_400_14_alg».proof.Proof.Rows
import Idealize.ShloMosaic.Lib.Pipeline.Value
import Idealize.ShloMosaic.Lib.ValueIdx
import Idealize.ShloMosaic.PureOps.Ideal.Laws

noncomputable section

namespace Cert.KernelIdeal.Chain

open Cert.KernelIdeal Cert.KernelIdeal.Gen Idealize.ShloMosaic Idealize.ShloMosaic.TcCoe Idealize.ShloMosaic.ValueIdx
open Cert.Rows

/-! ## The product contracting both operands' second axes: where each operand is read -/

theorem lhs_T_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem lhs_T_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
theorem rhs_T_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem rhs_T_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-- Entry `(p, c)` pairs row `p` of `L` with row `c` of `R`. -/
theorem mm_T_apply (L : FVec Ideal S10000x128 .f32) (R : FVec Ideal S128x128 .f32) (p : Fin 10000) (c : Fin 128) :
    matmul dot_S10000x128_S128x128_S10000x128_1_1_0_0_n_n none L R (constant (F := Ideal) S10000x128 .f32 0x00000000#32) (ix2 p c)
      = ∑ k : Fin 128, L (ix2 p k) * R (ix2 c k) := by
  simp only [matmul]
  rw [Ideal.matmul_constant_zero_apply, ← Equiv.sum_comp (ValueIdx.contrEquiv1 dot_S10000x128_S128x128_S10000x128_1_1_0_0_n_n 128 rfl rfl).symm]
  refine Finset.sum_congr rfl fun k _ => ?_
  have hk := ValueIdx.contrEquiv1_symm_val dot_S10000x128_S128x128_S10000x128_1_1_0_0_n_n 128 rfl rfl k
  have el : dot_S10000x128_S128x128_S10000x128_1_1_0_0_n_n.lhsIdx (ix2 p c) ((ValueIdx.contrEquiv1 dot_S10000x128_S128x128_S10000x128_1_1_0_0_n_n 128 rfl rfl).symm k) = ix2 p k := funext fun a => Fin.ext (by
    match a with
    | ⟨0, _⟩ => exact lhs_T_0 _ _
    | ⟨1, _⟩ => exact (lhs_T_1 _ _).trans hk)
  have er : dot_S10000x128_S128x128_S10000x128_1_1_0_0_n_n.rhsIdx (ix2 p c) ((ValueIdx.contrEquiv1 dot_S10000x128_S128x128_S10000x128_1_1_0_0_n_n 128 rfl rfl).symm k) = ix2 c k := funext fun a => Fin.ext (by
    match a with
    | ⟨0, _⟩ => exact rhs_T_0 _ _
    | ⟨1, _⟩ => exact (rhs_T_1 _ _).trans hk)
  rw [el, er]

/-! ## The ordinary product: left second axis against right first axis -/

theorem lhs_A_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_A_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_A_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_A_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry `(p, c)` pairs row `p` of `L` with column `c` of `R`. -/
theorem mm_A_apply (L : FVec Ideal S10000x128 .f32) (R : FVec Ideal S128x128 .f32) (p : Fin 10000) (c : Fin 128) :
    matmul dot_S10000x128_S128x128_S10000x128_1_0_0_1_n_n none L R (constant (F := Ideal) S10000x128 .f32 0x00000000#32) (ix2 p c)
      = ∑ k : Fin 128, L (ix2 p k) * R (ix2 k c) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p c) ((ValueIdx.contrEquiv1 dot_S10000x128_S128x128_S10000x128_1_0_0_1_n_n 128 rfl rfl).symm k) = ix2 p k := funext fun a => Fin.ext (by
    match a with
    | ⟨0, _⟩ => exact lhs_A_0 _ _
    | ⟨1, _⟩ => exact (lhs_A_1 _ _).trans hk)
  have er : dot_S10000x128_S128x128_S10000x128_1_0_0_1_n_n.rhsIdx (ix2 p c) ((ValueIdx.contrEquiv1 dot_S10000x128_S128x128_S10000x128_1_0_0_1_n_n 128 rfl rfl).symm k) = ix2 k c := funext fun a => Fin.ext (by
    match a with
    | ⟨0, _⟩ => exact (rhs_A_0 _ _).trans hk
    | ⟨1, _⟩ => exact rhs_A_1 _ _)
  rw [el, er]

/-! ## The product contracting both operands' first axes -/

theorem lhs_F_0 (i : S128x128.Idx) (q : dot_S128x128_S128x128_S128x128_0_0_1_1_n_n.contr.Idx) :
    (dot_S128x128_S128x128_S128x128_0_0_1_1_n_n.lhsIdx i q 0).val = (q ⟨0, by decide⟩).val :=
  dot_S128x128_S128x128_S128x128_0_0_1_1_n_n.lhsIdx_val_of_single rfl i q
theorem lhs_F_1 (i : S128x128.Idx) (q : dot_S128x128_S128x128_S128x128_0_0_1_1_n_n.contr.Idx) :
    (dot_S128x128_S128x128_S128x128_0_0_1_1_n_n.lhsIdx i q 1).val = (i 0).val := by
  unfold DotDims.lhsIdx
  rw [dif_neg (show ¬(1 : Fin S128x128.rank) ∈ dot_S128x128_S128x128_S128x128_0_0_1_1_n_n.lhsBatch by decide), dif_pos (show (1 : Fin S128x128.rank) ∈ dot_S128x128_S128x128_S128x128_0_0_1_1_n_n.lhsNonContracting by decide)]
  rfl
theorem rhs_F_0 (i : S128x128.Idx) (q : dot_S128x128_S128x128_S128x128_0_0_1_1_n_n.contr.Idx) :
    (dot_S128x128_S128x128_S128x128_0_0_1_1_n_n.rhsIdx i q 0).val = (q ⟨0, by decide⟩).val :=
  dot_S128x128_S128x128_S128x128_0_0_1_1_n_n.rhsIdx_val_of_single rfl i q
theorem rhs_F_1 (i : S128x128.Idx) (q : dot_S128x128_S128x128_S128x128_0_0_1_1_n_n.contr.Idx) :
    (dot_S128x128_S128x128_S128x128_0_0_1_1_n_n.rhsIdx i q 1).val = (i 1).val := by
  unfold DotDims.rhsIdx
  rw [dif_neg (show ¬(1 : Fin S128x128.rank) ∈ dot_S128x128_S128x128_S128x128_0_0_1_1_n_n.rhsBatch by decide), dif_pos (show (1 : Fin S128x128.rank) ∈ dot_S128x128_S128x128_S128x128_0_0_1_1_n_n.rhsNonContracting by decide)]
  rfl

/-- Entry `(p, c)` pairs column `p` of `L` with column `c` of `R`. -/
theorem mm_F_apply (L R : FVec Ideal S128x128 .f32) (p c : Fin 128) :
    matmul dot_S128x128_S128x128_S128x128_0_0_1_1_n_n none L R (constant (F := Ideal) S128x128 .f32 0x00000000#32) (ix2 p c)
      = ∑ k : Fin 128, L (ix2 k p) * R (ix2 k c) := by
  simp only [matmul]
  rw [Ideal.matmul_constant_zero_apply, ← Equiv.sum_comp (ValueIdx.contrEquiv1 dot_S128x128_S128x128_S128x128_0_0_1_1_n_n 128 rfl rfl).symm]
  refine Finset.sum_congr rfl fun k _ => ?_
  have hk := ValueIdx.contrEquiv1_symm_val dot_S128x128_S128x128_S128x128_0_0_1_1_n_n 128 rfl rfl k
  have el : dot_S128x128_S128x128_S128x128_0_0_1_1_n_n.lhsIdx (ix2 p c) ((ValueIdx.contrEquiv1 dot_S128x128_S128x128_S128x128_0_0_1_1_n_n 128 rfl rfl).symm k) = ix2 k p := funext fun a => Fin.ext (by
    match a with
    | ⟨0, _⟩ => exact (lhs_F_0 _ _).trans hk
    | ⟨1, _⟩ => exact lhs_F_1 _ _)
  have er : dot_S128x128_S128x128_S128x128_0_0_1_1_n_n.rhsIdx (ix2 p c) ((ValueIdx.contrEquiv1 dot_S128x128_S128x128_S128x128_0_0_1_1_n_n 128 rfl rfl).symm k) = ix2 k c := funext fun a => Fin.ext (by
    match a with
    | ⟨0, _⟩ => exact (rhs_F_0 _ _).trans hk
    | ⟨1, _⟩ => exact rhs_F_1 _ _)
  rw [el, er]

/-! ## Rows -/

/-- A row of the product contracting both second axes is `row · Wᵀ`. -/
theorem row_mm_T (L : FVec Ideal S10000x128 .f32) (W : FVec Ideal S128x128 .f32) (p : Fin 10000) :
    rowOf (matmul dot_S10000x128_S128x128_S10000x128_1_1_0_0_n_n none L W (constant (F := Ideal) S10000x128 .f32 0x00000000#32)) p
      = timesT (rowOf L p) (mat W) := by
  funext j
  exact mm_T_apply L W p j

/-- A row of the ordinary product is `row · A`. -/
theorem row_mm_A (L : FVec Ideal S10000x128 .f32) (A : FVec Ideal S128x128 .f32) (p : Fin 10000) :
    rowOf (matmul dot_S10000x128_S128x128_S10000x128_1_0_0_1_n_n none L A (constant (F := Ideal) S10000x128 .f32 0x00000000#32)) p
      = times (rowOf L p) (mat A) := by
  funext c
  exact mm_A_apply L A p c

/-- The product contracting both first axes is `Wᵀ · A`. -/
theorem mat_mm_F (W A : FVec Ideal S128x128 .f32) :
    mat (matmul dot_S128x128_S128x128_S128x128_0_0_1_1_n_n none W A (constant (F := Ideal) S128x128 .f32 0x00000000#32))
      = folded (mat W) (mat A) := by
  funext k c
  exact mm_F_apply W A k c

/-- A row of the maximum with the splat zero is `max(·, 0)` of the row. -/
theorem row_max_zero (L : FVec Ideal S10000x128 .f32) (p : Fin 10000) :
    rowOf (maximumf L (broadcast S10000x128 (Scalar.ofBits (F := Ideal) .f32 0x00000000#32))) p = fun c => max (rowOf L p c) 0 := by
  funext c
  show max (L (ix2 p c)) (Ideal.ofBits .f32 0x00000000#32) = max (L (ix2 p c)) 0
  rw [Ideal.ofBits_zero_f32]

/-! ## The stored block -/

/-- Row `p` of the body's stored value: the three hidden layers of row `p` of the input block, then `h · (Woutᵀ · A)`. -/
theorem pay_row (A : Vec Ideal S128x128 .f32) (xb : Vec Ideal S10000x128 .f32) (Win W1 W2 Wout : Vec Ideal S128x128 .f32) (p : Fin 10000) :
    rowOf (k0_pay1 (F := Ideal) A xb Win W1 W2 Wout) p
      = lastRight (hidden3 (rowOf xb p) (mat Win) (mat W1) (mat W2) (mat A)) (mat Wout) (mat A) := by
  unfold k0_pay1
  simp only [shapeCast_self, row_mm_A, row_mm_T, row_max_zero, mat_mm_F]
  rfl

end Cert.KernelIdeal.Chain

end
-- ==== Proof.KerArray.lean ====
/-
  From blocks to the array: the kernel's result array is the chain with the last layer associated to the right.

  The grid has ten points.  Point `t` stages rows `10000·t … 10000·t + 9999` of the re-laid input, the five
  matrices whole, and writes back rows `10000·t … 10000·t + 9999` of the result.  Row `p` of the block written at
  point `t` is the chain applied to row `p` of the staged block, that is to row `10000·t + p` of the input; so
  every point writes its block of ONE whole-array function, and the ten blocks tile the 100000 rows.
-/
import proofs.«174949_g58128087384148_cont_9to1_m_400_14_alg».proof.Proof.Gen.KernelIdeal.Value
import proofs.«174949_g58128087384148_cont_9to1_m_400_14_alg».proof.Proof.KerChain
import Idealize.ShloMosaic.Lib.StableHlo.Run

noncomputable section

namespace Cert.KernelIdeal.Chain

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.Rows

variable (m : (ℓ : Loc nD τ sig) → Buf (Elt Ideal) ℓ) (ρ : Dev nD → PrngReg)

theorem hz : (![0, 0] : Fin 2 → Nat) = fun _ => 0 := funext fun a => by fin_cases a <;> rfl

/-- The input as the region finds it: the 1×100000×128 argument re-laid as 100000 rows of 128. -/
abbrev rows (c : Dev nD) : FVec Ideal S100000x128 .f32 :=
  shapeCast S100000x128 (m ((c : Thread nD τ).loc main_arg0)) shapeCasts_S1x100000x128_S100000x128

/-- The one host operation before the region writes exactly that. -/
theorem V_rows (c : Dev nD) : (V m c main_call0_v0 : S100000x128.Idx → EReal) = rows m c := by
  dsimp only [Gen.V, Gen.hostOps0]; after_results; rfl

/-- The whole result array: the chain, last layer associated to the right, of the re-laid input and the five matrices. -/
abbrev result (c : Dev nD) : S100000x128.Idx → EReal :=
  chainRight (rows m c) (m ((c : Thread nD τ).loc main_arg1)) (m ((c : Thread nD τ).loc main_arg2)) (m ((c : Thread nD τ).loc main_arg3))
    (m ((c : Thread nD τ).loc main_arg4)) (m ((c : Thread nD τ).loc main_arg5))

/-- The printed index maps, decided over the ten points: the input rows' and the result's block index is the point
    itself on the row axis; every other block index is zero. -/
theorem idx_facts : ∀ t : Fin cfg0.N, win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The staged input block at point `t`, at an entry: the re-laid input `10000·t` rows further down. -/
theorem iblk0_apply (c : Dev nD) (t : Fin cfg0.N) (x : S10000x128.Idx) (k : S100000x128.Idx)
    (hk0 : (k 0).val = 10000 * t.val + (x 0).val) (hk1 : (k 1).val = (x 1).val) :
    (iblk m c 0 t : Vec Ideal S10000x128 .f32) x = rows m c k := by
  obtain ⟨e0, e1, -⟩ := idx_facts t
  unfold iblk
  rw [View.read_apply]
  show V m c main_call0_v0 _ = _
  rw [V_rows]
  congr 1
  funext a
  apply Fin.ext
  match a with
  | ⟨0, _⟩ => show win0_0.index t 0 * 10000 + 1 * (x 0).val = (k 0).val; rw [e0, hk0]; omega
  | ⟨1, _⟩ => show win0_0.index t 1 * 128 + 1 * (x 1).val = (k 1).val; rw [e1, hk1]; omega

/-- Row `p` of the staged input block at point `t` is row `10000·t + p` of the re-laid input. -/
theorem iblk0_row (c : Dev nD) (t : Fin cfg0.N) (p : Fin 10000) (h : 10000 * t.val + p.val < 100000) :
    rowOf (iblk m c 0 t : Vec Ideal S10000x128 .f32) p = rowOf (rows m c) ⟨10000 * t.val + p.val, h⟩ := by
  funext k
  exact iblk0_apply m c t (ix2 p k) (ix2 ⟨10000 * t.val + p.val, h⟩ k) rfl rfl

/-- A matrix window's block at any point is the whole matrix as launched. -/
theorem iblk1_eq (c : Dev nD) (t : Fin cfg0.N) : (iblk m c 1 t : Vec Ideal S128x128 .f32) = m ((c : Thread nD τ).loc main_arg1) := by
  obtain ⟨-, -, -, -, e0, e1, -⟩ := idx_facts t
  funext x
  unfold iblk
  rw [View.read_apply]
  show V m c main_arg1 _ = _
  rw [V_main_arg1]
  congr 1
  funext a
  apply Fin.ext
  match a with
  | ⟨0, _⟩ => show win0_1.index t 0 * 128 + 1 * (x 0).val = (x 0).val; rw [e0]; omega
  | ⟨1, _⟩ => show win0_1.index t 1 * 128 + 1 * (x 1).val = (x 1).val; rw [e1]; omega
theorem iblk2_eq (c : Dev nD) (t : Fin cfg0.N) : (iblk m c 2 t : Vec Ideal S128x128 .f32) = m ((c : Thread nD τ).loc main_arg2) := by
  obtain ⟨-, -, -, -, -, -, e0, e1, -⟩ := idx_facts t
  funext x
  unfold iblk
  rw [View.read_apply]
  show V m c main_arg2 _ = _
  rw [V_main_arg2]
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega
theorem iblk3_eq (c : Dev nD) (t : Fin cfg0.N) : (iblk m c 3 t : Vec Ideal S128x128 .f32) = m ((c : Thread nD τ).loc main_arg3) := by
  obtain ⟨-, -, -, -, -, -, -, -, e0, e1, -⟩ := idx_facts t
  funext x
  unfold iblk
  rw [View.read_apply]
  show V m c main_arg3 _ = _
  rw [V_main_arg3]
  congr 1
  funext a
  apply Fin.ext
  match a with
  | ⟨0, _⟩ => show win0_3.index t 0 * 128 + 1 * (x 0).val = (x 0).val; rw [e0]; omega
  | ⟨1, _⟩ => show win0_3.index t 1 * 128 + 1 * (x 1).val = (x 1).val; rw [e1]; omega
theorem iblk4_eq (c : Dev nD) (t : Fin cfg0.N) : (iblk m c 4 t : Vec Ideal S128x128 .f32) = m ((c : Thread nD τ).loc main_arg4) := by
  obtain ⟨-, -, -, -, -, -, -, -, -, -, e0, e1, -⟩ := idx_facts t
  funext x
  unfold iblk
  rw [View.read_apply]
  show V m c main_arg4 _ = _
  rw [V_main_arg4]
  congr 1
  funext a
  apply Fin.ext
  match a with
  | ⟨0, _⟩ => show win0_4.index t 0 * 128 + 1 * (x 0).val = (x 0).val; rw [e0]; omega
  | ⟨1, _⟩ => show win0_4.index t 1 * 128 + 1 * (x 1).val = (x 1).val; rw [e1]; omega
theorem iblk5_eq (c : Dev nD) (t : Fin cfg0.N) : (iblk m c 5 t : Vec Ideal S128x128 .f32) = m ((c : Thread nD τ).loc main_arg5) := by
  obtain ⟨-, -, -, -, -, -, -, -, -, -, -, -, e0, e1⟩ := idx_facts t
  funext x
  unfold iblk
  rw [View.read_apply]
  show V m c main_arg5 _ = _
  rw [V_main_arg5]
  congr 1
  funext a
  apply Fin.ext
  match a with
  | ⟨0, _⟩ => show win0_5.index t 0 * 128 + 1 * (x 0).val = (x 0).val; rw [e0]; omega
  | ⟨1, _⟩ => show win0_5.index t 1 * 128 + 1 * (x 1).val = (x 1).val; rw [e1]; omega

/-- What the body stores at point `t`, entry by entry, is the result array read through point `t`'s block. -/
theorem stored_eq (c : Dev nD) (t : Fin cfg0.N) (y : S10000x128.Idx) :
    k0_pay1 (F := Ideal) (iblk m c 1 t) (iblk m c 0 t) (iblk m c 2 t) (iblk m c 3 t) (iblk m c 4 t) (iblk m c 5 t) y
      = result m c (((cfg0.win 6).blk t).view.emb y) := by
  obtain ⟨p, q, rfl⟩ : ∃ (p : Fin 10000) (q : Fin 128), y = ix2 p q := ⟨y 0, y 1, eq_ix2 y⟩
  have ht : t.val < 10 := by have h := t.isLt; have hN : cfg0.N = 10 := N_0; omega
  have hp : p.val < 10000 := p.isLt
  obtain ⟨-, -, e0, e1, -⟩ := idx_facts t
  refine (congrFun (pay_row (iblk m c 1 t) (iblk m c 0 t) (iblk m c 2 t) (iblk m c 3 t) (iblk m c 4 t) (iblk m c 5 t) p) q).trans ?_
  rw [iblk0_row m c t p (by omega), iblk1_eq, iblk2_eq, iblk3_eq, iblk4_eq, iblk5_eq]
  refine (chainRight_apply _ _ _ _ _ _ _ ⟨10000 * t.val + p.val, by omega⟩ q ?_ ?_).symm
  · show win0_6.index t 0 * 10000 + 1 * p.val = 10000 * t.val + p.val
    rw [e0]; omega
  · show win0_6.index t 1 * 128 + 1 * q.val = q.val
    rw [e1]; omega

/-- WHAT POINT `t` WRITES BACK is block `t` of the result array. -/
theorem flushed_eq (c : Dev nD) (t : Fin cfg0.N) :
    (dats m 0 c).flushed 6 t = ((cfg0.win 6).blk t).view.read (Elt Ideal) (result m c) := by
  rw [flushed6]
  unfold out0_6
  rw [View.canon_unit_zero hz]
  simp only [View.ld_unit_zero (S := S10000x128) hz, View.ld_unit_zero (S := S128x128) hz]
  funext j
  exact stored_eq m c t j

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v0).slice (win0_6.rect t)).set ↔ _
  rw [View.set_slice_whole, Rect.mem_set_unit]
  exact Iff.rfl

/-- THE ARRAY after the run: row `r` lies in the block of point `r / 10000`, so the ten blocks cover it. -/
theorem final (c : Dev nD) : (dats m 0 c).arrAt 6 cfg0.N = result m c :=
  (dats m 0 c).arrAt_eq_of_cover 6 (result m c) (fun t _ => flushed_eq m c t) fun i => by
    have h0 : (i 0).val < 100000 := (i 0).isLt
    have h1 : (i 1).val < 128 := (i 1).isLt
    have hN : cfg0.N = 10 := N_0
    refine ⟨⟨(i 0).val / 10000, by rw [hN]; omega⟩, flush0_6 _, ?_⟩
    rw [mem_blk]
    obtain ⟨-, -, e0, e1, -⟩ := idx_facts ⟨(i 0).val / 10000, by rw [hN]; omega⟩
    intro a
    match a with
    | ⟨0, _⟩ =>
      show win0_6.index ⟨(i 0).val / 10000, _⟩ 0 * 10000 ≤ (i 0).val ∧ (i 0).val < win0_6.index ⟨(i 0).val / 10000, _⟩ 0 * 10000 + 10000
      rw [e0]; show (i 0).val / 10000 * 10000 ≤ (i 0).val ∧ (i 0).val < (i 0).val / 10000 * 10000 + 10000; omega
    | ⟨1, _⟩ =>
      show win0_6.index ⟨(i 0).val / 10000, _⟩ 1 * 128 ≤ (i 1).val ∧ (i 1).val < win0_6.index ⟨(i 0).val / 10000, _⟩ 1 * 128 + 128
      rw [e1]; omega

/-- The run, read: the result array at the chain of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Chain

end
-- ==== Proof.RefChain.lean ====
/-
  The reference's result array is the chain with the last layer associated to the left.

  The reference is a sequence of host products of a 100000×128 array with a 128×128 one, each entry the sum
  over `k` of the left operand's entry `(r, k)` times the right operand's entry `(k, c)`.  Read row by row: a
  product with a transposed weight matrix is `row · Wᵀ`, a product with the adjacency matrix is `row · A`, and the
  maximum with the broadcast zero is `max(·, 0)` entry by entry.  Composing the eight products and three maxima
  gives, for row `r`, the three hidden layers of row `r` of the reshaped input followed by `(h · Woutᵀ) · A`.
-/
import proofs.«174949_g58128087384148_cont_9to1_m_400_14_alg».proof.Proof.Gen.ReferenceIdeal.Read
import proofs.«174949_g58128087384148_cont_9to1_m_400_14_alg».proof.Proof.Rows

noncomputable section

namespace Cert.ReferenceIdeal.Chain

open Cert.ReferenceIdeal Cert.ReferenceIdeal.Gen Idealize.ShloMosaic Idealize.ShloMosaic.TcCoe Idealize.ShloMosaic.ValueIdx
open Cert.Rows

/-- The host's product at entry `(r, c)`: the sum over `k` of `L (r, k) · R (k, c)`. -/
theorem dot_apply (L : FVec Ideal S100000x128 .f32) (R : FVec Ideal S128x128 .f32) (r : Fin 100000) (c : Fin 128) :
    Host.dotGeneral dot_S100000x128_S128x128_S100000x128_1_0_0_1_n_n none L R (ix2 r c) = ∑ k : Fin 128, L (ix2 r k) * R (ix2 k c) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r c) ((ValueIdx.contrEquiv1 dot_S100000x128_S128x128_S100000x128_1_0_0_1_n_n 128 rfl rfl).symm k) = ix2 r k := funext fun a => Fin.ext (by
    match a with
    | ⟨0, _⟩ => exact Read.lhs_main_v2_0 _ _
    | ⟨1, _⟩ => exact (Read.lhs_main_v2_1 _ _).trans hk)
  have er : dot_S100000x128_S128x128_S100000x128_1_0_0_1_n_n.rhsIdx (ix2 r c) ((ValueIdx.contrEquiv1 dot_S100000x128_S128x128_S100000x128_1_0_0_1_n_n 128 rfl rfl).symm k) = ix2 k c := funext fun a => Fin.ext (by
    match a with
    | ⟨0, _⟩ => exact (Read.rhs_main_v2_0 _ _).trans hk
    | ⟨1, _⟩ => exact Read.rhs_main_v2_1 _ _)
  rw [el, er]

/-- A row of the product with a transposed matrix is `row · Wᵀ`. -/
theorem row_dot_transpose (L : FVec Ideal S100000x128 .f32) (W : FVec Ideal S128x128 .f32) (r : Fin 100000) :
    rowOf (Host.dotGeneral dot_S100000x128_S128x128_S100000x128_1_0_0_1_n_n none L (transpose S128x128 [1, 0] W transposes_S128x128_S128x128_1_0)) r
      = timesT (rowOf L r) (mat W) := by
  funext j
  show Host.dotGeneral dot_S100000x128_S128x128_S100000x128_1_0_0_1_n_n none L (transpose S128x128 [1, 0] W transposes_S128x128_S128x128_1_0) (ix2 r j)
    = ∑ k : Fin 128, L (ix2 r k) * W (ix2 j k)
  rw [dot_apply]
  refine Finset.sum_congr rfl fun k _ => ?_
  congr 1
  exact transpose_apply [1, 0] W transposes_S128x128_S128x128_1_0 (ix2 k j) (ix2 j k) (fun b => match b with
    | ⟨0, _⟩ => rfl
    | ⟨1, _⟩ => rfl)

/-- A row of the product with a matrix is `row · A`. -/
theorem row_dot (L : FVec Ideal S100000x128 .f32) (A : FVec Ideal S128x128 .f32) (r : Fin 100000) :
    rowOf (Host.dotGeneral dot_S100000x128_S128x128_S100000x128_1_0_0_1_n_n none L A) r = times (rowOf L r) (mat A) := by
  funext c
  show Host.dotGeneral dot_S100000x128_S128x128_S100000x128_1_0_0_1_n_n none L A (ix2 r c) = ∑ k : Fin 128, L (ix2 r k) * A (ix2 k c)
  rw [dot_apply]

/-- A row of the maximum with the broadcast zero is `max(·, 0)` of the row. -/
theorem row_max_zero (L : FVec Ideal S100000x128 .f32) (r : Fin 100000) :
    rowOf (maximumf L (broadcastInDim S100000x128 ![] bcast_S_S100000x128 (constant S_ .f32 0x00000000#32))) r
      = fun c => max (rowOf L r c) 0 := by
  funext c
  show max (L (ix2 r c)) (broadcastInDim S100000x128 ![] bcast_S_S100000x128 (constant (F := Ideal) S_ .f32 0x00000000#32) (ix2 r c)) = max (L (ix2 r c)) 0
  congr 1
  rw [broadcastInDim_apply _ bcast_S_S100000x128 (constant (F := Ideal) S_ .f32 0x00000000#32) (ix2 r c) ValueIdx.ix0 (fun a => a.elim0)]
  exact Ideal.ofBits_zero_f32

/-- The reference run's result term is `chainLeft` of the reshaped input and the five matrices. -/
theorem result_eq (x0 : (⟨S1x100000x128, .f32⟩ : BufTy).Contents (Elt Ideal)) (x1 x2 x3 x4 x5 : (⟨S128x128, .f32⟩ : BufTy).Contents (Elt Ideal)) :
    Read.val_main_v15 (F := Ideal) x0 x1 x2 x3 x4 x5
      = chainLeft (shapeCast S100000x128 x0 shapeCasts_S1x100000x128_S100000x128) x1 x2 x3 x4 x5 := by
  funext i
  obtain ⟨r, c, rfl⟩ : ∃ (r : Fin 100000) (c : Fin 128), i = ix2 r c := ⟨i 0, i 1, eq_ix2 i⟩
  rw [← Read.val_main_v15_eq]
  show rowOf _ r c = _
  rw [row_dot, row_dot_transpose, row_max_zero, row_dot, row_dot_transpose, row_max_zero, row_dot, row_dot_transpose,
    row_max_zero, row_dot, row_dot_transpose]
  rfl

end Cert.ReferenceIdeal.Chain

end
-- ==== Proof.Finite.lean ====
/-
  The precondition says every input entry is a real number.

  The printed predicate is the conjunction, argument by argument, of "every entry's absolute value is below +∞".
  On the extended reals `max(x, -x) < +∞` excludes exactly `x = +∞` and `x = -∞`, so each conjunct says that
  every entry of that argument is (the inclusion of) a real number.
-/
import proofs.«174949_g58128087384148_cont_9to1_m_400_14_alg».proof.Pre_finite_inputs
import proofs.«174949_g58128087384148_cont_9to1_m_400_14_alg».proof.Proof.Rows
import Idealize.ShloMosaic.PureOps.Ideal.Laws
import Idealize.ShloMosaic.Lib.ReduceAll
import Idealize.ShloMosaic.Lib.Pipeline.Value
import Idealize.ShloMosaic.Lib.ValueIdx

noncomputable section

namespace Cert.Finite

open Idealize.ShloMosaic Idealize.ShloMosaic.ValueIdx
open Cert.Rows

/-- The bit pattern of +∞ denotes the top extended real. -/
theorem ofBits_inf : Ideal.ofBits .f32 0x7F800000#32 = (⊤ : EReal) := by
  simp [Ideal.ofBits, Ideal.ieee]

/-- An extended real whose absolute value is below +∞ is a real. -/
theorem isReal_of_abs_lt_top {x : EReal} (h : max x (-x) < ⊤) : IsReal x := by
  induction x using EReal.rec with
  | bot => simp at h
  | coe r => exact ⟨r, rfl⟩
  | top => simp at h

instance : Subsingleton (⟨0, ![]⟩ : Shape).Idx := ⟨fun a b => funext fun d => d.elim0⟩

/-- One conjunct of the predicate: if the all-reduction of "|x| < +∞" is one, every entry of `x` is a real. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have hi := Host.reduce_andi_all _ _ hr hu ix0 e i
  have hbi : broadcastInDim s ![] hb (constant (F := Ideal) ⟨0, ![]⟩ .f32 0x7F800000#32) i = Ideal.ofBits .f32 0x7F800000#32 :=
    broadcastInDim_apply _ hb (constant (F := Ideal) ⟨0, ![]⟩ .f32 0x7F800000#32) i ix0 (fun a => a.elim0)
  have hc : Ideal.cmp .olt (max (x i) (-(x i))) (⊤ : EReal) = 1#1 := by
    rw [← ofBits_inf, ← hbi]; exact hi
  refine isReal_of_abs_lt_top ?_
  by_contra hlt
  have : Ideal.cmp .olt (max (x i) (-(x i))) (⊤ : EReal) = 0#1 := by
    simp only [Ideal.cmp, decide_eq_false hlt]; rfl
  rw [this] at hc
  exact absurd hc (by decide)

/-- The whole predicate: every entry of every argument is a real. -/
theorem reals_of_pre [Cert.Pre_finite_inputs.Facts] (a0 : FVec Ideal Cert.Pre_finite_inputs.S1x100000x128 .f32)
    (a1 a2 a3 a4 a5 : FVec Ideal Cert.Pre_finite_inputs.S128x128 .f32)
    (h : Cert.Pre_finite_inputs.fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) := by
  have h0 := congrFun h ix0
  dsimp only [Cert.Pre_finite_inputs.fn, Cert.Pre_finite_inputs.fn_part1] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨all_real a0 _ _ _ e0, all_real a1 _ _ _ e1, all_real a2 _ _ _ e2, all_real a3 _ _ _ e3, all_real a4 _ _ _ e4, all_real a5 _ _ _ e5⟩

end Cert.Finite

end
-- ==== Proof.lean ====
/-
  The four-layer chain `h ↦ max((h · Wᵀ) · A, 0)` three times, then a last linear layer, over 100000 rows of 128
  features: the kernel against its reference, on the extended reals.

  Both programs compute every output row from ONE input row and the five 128×128 matrices.  The three hidden
  layers are the same products and the same `max(·, 0)` on both sides.  The last layer is `(h · Woutᵀ) · A` in the
  reference and `h · (Woutᵀ · A)` in the kernel — associativity of the matrix product, which on the extended reals
  needs every entry real (a factor is distributed over a sum).  The precondition makes every input entry real;
  sums of products and `max(·, 0)` keep them real; so the two last layers agree (Proof/Rows.lean).

  Proof/RefChain.lean reads the reference's composed term row by row; Proof/KerChain.lean reads the kernel body's
  stored value row by row; Proof/KerArray.lean assembles the kernel's ten row blocks into the whole result array;
  Proof/Finite.lean reads "every entry is real" out of the precondition.  Here the five conjuncts are assembled.
-/
import proofs.«174949_g58128087384148_cont_9to1_m_400_14_alg».proof.Defs
import proofs.«174949_g58128087384148_cont_9to1_m_400_14_alg».proof.Proof.Gen.Kernel
import proofs.«174949_g58128087384148_cont_9to1_m_400_14_alg».proof.Proof.Gen.Kernel.Skeleton
import proofs.«174949_g58128087384148_cont_9to1_m_400_14_alg».proof.Proof.Gen.Kernel.Launch
import proofs.«174949_g58128087384148_cont_9to1_m_400_14_alg».proof.Proof.Gen.Kernel.Points
import proofs.«174949_g58128087384148_cont_9to1_m_400_14_alg».proof.Proof.Gen.Kernel.Frame
import proofs.«174949_g58128087384148_cont_9to1_m_400_14_alg».proof.Proof.Gen.KernelIdeal
import proofs.«174949_g58128087384148_cont_9to1_m_400_14_alg».proof.Proof.Gen.KernelIdeal.Skeleton
import proofs.«174949_g58128087384148_cont_9to1_m_400_14_alg».proof.Proof.Gen.KernelIdeal.Launch
import proofs.«174949_g58128087384148_cont_9to1_m_400_14_alg».proof.Proof.Gen.KernelIdeal.Points
import proofs.«174949_g58128087384148_cont_9to1_m_400_14_alg».proof.Proof.Gen.KernelIdeal.Frame
import proofs.«174949_g58128087384148_cont_9to1_m_400_14_alg».proof.Proof.Gen.ReferenceIdeal
import proofs.«174949_g58128087384148_cont_9to1_m_400_14_alg».proof.Proof.Gen.Pre_finite_inputs
import proofs.«174949_g58128087384148_cont_9to1_m_400_14_alg».proof.Proof.Gen.KernelIdeal.Value
import proofs.«174949_g58128087384148_cont_9to1_m_400_14_alg».proof.Proof.Gen.ReferenceIdeal.Run
import proofs.«174949_g58128087384148_cont_9to1_m_400_14_alg».proof.Proof.Gen.ReferenceIdeal.Read
import proofs.«174949_g58128087384148_cont_9to1_m_400_14_alg».proof.Proof.KerArray
import proofs.«174949_g58128087384148_cont_9to1_m_400_14_alg».proof.Proof.RefChain
import proofs.«174949_g58128087384148_cont_9to1_m_400_14_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- A re-laid array of reals is an array of reals: each entry of the re-laid array is an entry of the original. -/
theorem isReal_shapeCast {s t : Shape} (x : s.Idx → EReal) (h : s.ShapeCasts t) (hx : ∀ i, Cert.Rows.IsReal (x i)) (j : t.Idx) :
    Cert.Rows.IsReal (shapeCast t x h j) := by
  unfold shapeCast
  exact hx _

/-- Both programs end with the chain of the input rows, last layer associated to the left: the reference by its
    composed term, the kernel by its blocks and, the inputs being real, by associativity of the last layer. -/
theorem algebraic : Cert.algebraic_KernelIdeal_ReferenceIdeal := by
  intro m ρ m' ρ' hpre hagree
  refine ⟨fun c => Cert.Rows.chainLeft (Cert.KernelIdeal.Chain.rows m c)
      (m ((c : Thread Cert.KernelIdeal.nD Cert.KernelIdeal.τ).loc Cert.KernelIdeal.main_arg1)) (m ((c : Thread Cert.KernelIdeal.nD Cert.KernelIdeal.τ).loc Cert.KernelIdeal.main_arg2))
      (m ((c : Thread Cert.KernelIdeal.nD Cert.KernelIdeal.τ).loc Cert.KernelIdeal.main_arg3)) (m ((c : Thread Cert.KernelIdeal.nD Cert.KernelIdeal.τ).loc Cert.KernelIdeal.main_arg4))
      (m ((c : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩) (Cert.KernelIdeal.Chain.run m ρ)
    obtain ⟨r0, r1, r2, r3, r4, r5⟩ := Cert.Finite.reals_of_pre _ _ _ _ _ _ (hpre c)
    exact Cert.Rows.chainRight_eq_chainLeft (isReal_shapeCast _ _ r0) r1 r2 r3 r4 r5
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v15_eq, Cert.ReferenceIdeal.Chain.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
